-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S128x64 .f32) (main_arg3 : FVec F S128x64 .f32) (main_arg4 : FVec F S128 .f32) (main_arg5 : FVec F S64x128 .f32) (main_arg6 : FVec F S64x128 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1600000x128 : Shape := ⟨2, ![1600000, 128]⟩
abbrev S1x64 : Shape := ⟨2, ![1, 64]⟩

abbrev nBuf : Space → Nat
  | .hbm => 59
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x64, .f32⟩
  | .hbm, ⟨58, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S128x64, .f32⟩
  | .local _ .vmem, ⟨5, _⟩ => ⟨S1x128, .f32⟩
  | .local _ .vmem, ⟨6, _⟩ => ⟨S128x64, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S64x128, .f32⟩
  | .local _ .vmem, ⟨14, _⟩ => ⟨S1x64, .f32⟩
  | .local _ .vmem, ⟨15, _⟩ => ⟨S64x128, .f32⟩
  | .local _ .vmem, ⟨16, _⟩ => ⟨S2000x64, .f32⟩
  | .local _ .vmem, ⟨17, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S2000x128_S2000x128 : S2000x128.ShapeCasts S2000x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S128x64_S2000x128_1_1_0_0_n_n_wf : DotDims.WF S2000x64 S128x64 S2000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S64x128_S2000x64_1_1_0_0_n_n_wf : DotDims.WF S2000x128 S64x128 S2000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S128x64_S2000x128_1_1_0_0_n_n : DotDims S2000x64 S128x64 S2000x128 where
  lhsContracting := [1]
  rhsContracting := [1]
  lhsNonContracting := [0]
  rhsNonContracting := [0]
  lhsBatch := []
  rhsBatch := []
  wf := dot_S2000x64_S128x64_S2000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S64x128_S2000x64_1_1_0_0_n_n : DotDims S2000x128 S64x128 S2000x64 where
  lhsContracting := [1]
  rhsContracting := [1]
  lhsNonContracting := [0]
  rhsNonContracting := [0]
  lhsBatch := []
  rhsBatch := []
  wf := dot_S2000x128_S64x128_S2000x64_1_1_0_0_n_n_wf

abbrev win0_0 : Pipeline.Window sig grid0 :=
  Pipeline.Window.ofSpec (Memref.whole main_v24) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S64x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S128x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  What both programs compute, over the extended reals: two mean-aggregation graph layers.

  The graph has 100 000 nodes and 1 600 000 edges; row 0 of the edge list is each edge's source node, row 1 its
  destination. A layer sends node features `x` to
      act( mean over the edges into p of x[source] · Wlᵀ  +  x[p] · Wrᵀ  +  b ),
  the mean being the sum over the edges into `p` divided by max(in-degree of p, 1). Layer 1 (64 → 128 channels)
  takes the positive part, layer 2 (128 → 64 channels) the logistic function of the sum.

  The sums over edges are a gather followed by a scatter-add. Both programs apply the same two operations to the
  same index columns, so they are carried here as one function of the features and the edge list and never opened:
  everything below is stated over them.
-/
import proofs.«147514_j47115791237141_1_alg».proof.KernelIdeal
import Idealize.ShloMosaic.PureOps.Ideal
import Idealize.ShloMosaic.Lib.ValueIdx

noncomputable section

open scoped BigOperators

namespace Cert.Sage

open Idealize.ShloMosaic Idealize.ShloMosaic.ValueIdx Cert.KernelIdeal Cert.KernelIdeal.Facts₀

variable [Cert.KernelIdeal.Facts₀]

/-! ## The edge list as index columns -/

/-- Row 0 of the edge list, flat: the source node of every edge, as written. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list, flat: the destination node of every edge. -/
def dstRow (e : IVec S2x1600000 32) : IVec S1600000 32 :=
  shapeCast S1600000 (extractStridedSlice S1x1600000 ![1, 0] e slices_S2x1600000_S1x1600000_1_0) shapeCasts_S1x1600000_S1600000

/-- The gather's index column: each source word, a negative one counted back from the node count. -/
def srcIdx (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32)))
      (srcRow e))

/-- The scatter's index column: each destination word. -/
def dstIdx (e : IVec S2x1600000 32) : IVec S1600000x1 32 :=
  broadcastInDim S1600000x1 ![0] bcast_S1600000_S1600000x1_0 (dstRow e)

/-! ## Sums over the edges into a node -/

/-- The in-degree of every node: a one added at each edge's destination. -/
def degree (e : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (dstIdx e)
    (broadcastInDim S1600000 ![] bcast_S_S1600000 (constant (F := Ideal) S_ .f32 0x3F800000#32))

/-- max(in-degree, 1): what a mean over incoming edges divides by, so that a node with no incoming edge divides by one. -/
def degreeMax (e : IVec S2x1600000 32) : FVec Ideal S100000 .f32 :=
  maximumf (degree e) (broadcastInDim S100000 ![] bcast_S_S100000 (constant (F := Ideal) S_ .f32 0x3F800000#32))

/-- For every node, the sum over its incoming edges of the source node's 64 features. -/
def edgeSum64 (x : FVec Ideal S100000x64 .f32) (e : IVec S2x1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (dstIdx e)
    (Host.gather gather_S100000x64_S1600000x1_S1600000x64_1_0_n_n_0_1_164 x (srcIdx e))

/-- The same for 128 features. -/
def edgeSum128 (h : FVec Ideal S100000x128 .f32) (e : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (dstIdx e)
    (Host.gather gather_S100000x128_S1600000x1_S1600000x128_1_0_n_n_0_1_1128 h (srcIdx e))

/-- The mean over a node's incoming edges of the source's 64 features: the edge sum over max(in-degree, 1). -/
def mean64 (x : FVec Ideal S100000x64 .f32) (e : IVec S2x1600000 32) : FVec Ideal S100000x64 .f32 :=
  fun i => Ideal.div (edgeSum64 x e i) (degreeMax e (ix1 ⟨(i 0).val, (i 0).isLt⟩))

/-- The same for 128 features. -/
def mean128 (h : FVec Ideal S100000x128 .f32) (e : IVec S2x1600000 32) : FVec Ideal S100000x128 .f32 :=
  fun i => Ideal.div (edgeSum128 h e i) (degreeMax e (ix1 ⟨(i 0).val, (i 0).isLt⟩))

/-! ## The dense half of a layer, one node and one output channel at a time -/

/-- Layer 1 at node `p`, channel `q`: the positive part of
    (∑ₖ agg[p,k]·wl[q,k]) + (∑ₖ x[p,k]·wr[q,k]) + b[q], the bias a row vector. -/
def dense1At (agg x : FVec Ideal S100000x64 .f32) (wl : FVec Ideal S128x64 .f32) (b : FVec Ideal S1x128 .f32)
    (wr : FVec Ideal S128x64 .f32) (p : Fin 100000) (q : Fin 128) : EReal :=
  max (((∑ k : Fin 64, agg (ix2 p k) * wl (ix2 q k)) + (∑ k : Fin 64, x (ix2 p k) * wr (ix2 q k))) + b (ix2 (0 : Fin 1) q)) 0

/-- Layer 1 as an array over nodes and channels. -/
def dense1 (agg x : FVec Ideal S100000x64 .f32) (wl : FVec Ideal S128x64 .f32) (b : FVec Ideal S1x128 .f32)
    (wr : FVec Ideal S128x64 .f32) : FVec Ideal S100000x128 .f32 :=
  fun i => dense1At agg x wl b wr ⟨(i 0).val, (i 0).isLt⟩ ⟨(i 1).val, (i 1).isLt⟩

theorem dense1_apply (agg x : FVec Ideal S100000x64 .f32) (wl : FVec Ideal S128x64 .f32) (b : FVec Ideal S1x128 .f32)
    (wr : FVec Ideal S128x64 .f32) (p : Fin 100000) (q : Fin 128) :
    dense1 agg x wl b wr (ix2 p q) = dense1At agg x wl b wr p q := rfl

/-- Layer 2 at node `p`, channel `q`: the logistic function of
    (∑ₖ agg[p,k]·wl[q,k]) + (∑ₖ h[p,k]·wr[q,k]) + b[q]. -/
def dense2At (agg h : FVec Ideal S100000x128 .f32) (wl : FVec Ideal S64x128 .f32) (b : FVec Ideal S1x64 .f32)
    (wr : FVec Ideal S64x128 .f32) (p : Fin 100000) (q : Fin 64) : EReal :=
  Ideal.logistic (((∑ k : Fin 128, agg (ix2 p k) * wl (ix2 q k)) + (∑ k : Fin 128, h (ix2 p k) * wr (ix2 q k))) + b (ix2 (0 : Fin 1) q))

/-- Layer 2 as an array over nodes and channels. -/
def dense2 (agg h : FVec Ideal S100000x128 .f32) (wl : FVec Ideal S64x128 .f32) (b : FVec Ideal S1x64 .f32)
    (wr : FVec Ideal S64x128 .f32) : FVec Ideal S100000x64 .f32 :=
  fun i => dense2At agg h wl b wr ⟨(i 0).val, (i 0).isLt⟩ ⟨(i 1).val, (i 1).isLt⟩

theorem dense2_apply (agg h : FVec Ideal S100000x128 .f32) (wl : FVec Ideal S64x128 .f32) (b : FVec Ideal S1x64 .f32)
    (wr : FVec Ideal S64x128 .f32) (p : Fin 100000) (q : Fin 64) :
    dense2 agg h wl b wr (ix2 p q) = dense2At agg h wl b wr p q := rfl

/-! ## The network -/

/-- A bias vector as the one-row array a layer reads it through. -/
def row128 (b : FVec Ideal S128 .f32) : FVec Ideal S1x128 .f32 := fun i => b (ix1 ⟨(i 1).val, (i 1).isLt⟩)
def row64 (b : FVec Ideal S64 .f32) : FVec Ideal S1x64 .f32 := fun i => b (ix1 ⟨(i 1).val, (i 1).isLt⟩)

/-- The hidden features: layer 1 of the input features and their means over incoming edges. -/
def hidden (x : FVec Ideal S100000x64 .f32) (e : IVec S2x1600000 32) (w1l w1r : FVec Ideal S128x64 .f32)
    (b1 : FVec Ideal S128 .f32) : FVec Ideal S100000x128 .f32 :=
  dense1 (mean64 x e) x w1l (row128 b1) w1r

/-- The result: layer 2 of the hidden features and their means over incoming edges. -/
def net (x : FVec Ideal S100000x64 .f32) (e : IVec S2x1600000 32) (w1l w1r : FVec Ideal S128x64 .f32)
    (b1 : FVec Ideal S128 .f32) (w2l w2r : FVec Ideal S64x128 .f32) (b2 : FVec Ideal S64 .f32) :
    FVec Ideal S100000x64 .f32 :=
  dense2 (mean128 (hidden x e w1l w1r b1) e) (hidden x e w1l w1r b1) w2l (row64 b2) w2r

end Cert.Sage

end
-- ==== Proof.SageLaws.lean ====
/-
  Three facts about the extended reals that join the two programs' arithmetic.

  One program multiplies an edge sum by the reciprocal 1 / max(deg, 1), the other divides it by max(deg, 1). Off zero
  the division `x / y` is `x · y⁻¹` for every extended real `x` and `y`, the infinities included, and max(deg, 1) is at
  least one, so the two agree whatever the degree and whatever the sum. One program spells the logistic function as
  one operation, the other as 1 / (1 + e⁻ᶻ): that is the function's definition. The words `1.0` and `0.0` denote one and zero.
-/
import Idealize.ShloMosaic.PureOps.Ideal
import Idealize.ShloMosaic.PureOps.Ideal.Laws

noncomputable section

namespace Cert.Sage

open Idealize.ShloMosaic

/-- The word of `1.0` denotes one. -/
theorem one_word : Ideal.ofBits .f32 0x3F800000#32 = 1 := by
  simp [Ideal.ofBits, Ideal.ieee, -EReal.coe_mul]; norm_num

/-- The word of `0.0` denotes zero. -/
theorem zero_word : Ideal.ofBits .f32 0x00000000#32 = 0 := Ideal.ofBits_zero_f32

/-- A maximum with one is not zero. -/
theorem max_one_ne_zero (g : EReal) : max g 1 ≠ 0 :=
  ne_of_gt (lt_of_lt_of_le zero_lt_one (le_max_right g 1))

/-- Multiplying by the reciprocal of a nonzero extended real is dividing by it, at the infinities too. -/
theorem mul_div_one (s d : EReal) (hd : d ≠ 0) : s * Ideal.div 1 d = Ideal.div s d := by
  rw [Ideal.div, if_neg hd, Ideal.div, if_neg hd, one_mul]

/-- The mean over incoming edges, both ways: times 1 / max(deg, 1) is over max(deg, 1). -/
theorem mul_inv_degree (s g : EReal) : s * Ideal.div 1 (max g 1) = Ideal.div s (max g 1) :=
  mul_div_one s _ (max_one_ne_zero g)

/-- The logistic function is 1 / (1 + e⁻ᶻ). -/
theorem logistic_spelt (z : EReal) : Ideal.div 1 (1 + Ideal.exp (-z)) = Ideal.logistic z := rfl

end Cert.Sage

end
-- ==== Proof.MeanForms.lean ====
/-
  The kernel program's arrays, read as the specification's.

  The kernel program forms a mean over incoming edges as the edge sum TIMES the reciprocal 1 / max(deg, 1), the
  reciprocal computed once per node and broadcast along the feature axis. Read at a node `p` and a feature `k` that is
  sum(p,k) · (1 / max(deg p, 1)), and multiplying by the reciprocal of max(deg p, 1) — which is at least one, so not zero —
  is dividing by it, at the infinities too: the product array IS the specification's mean. A bias vector reshaped to one
  row reads, at (0, q), the vector at q.
-/
import proofs.«147514_j47115791237141_1_alg».proof.Proof.SageSpec
import proofs.«147514_j47115791237141_1_alg».proof.Proof.SageLaws
import Idealize.ShloMosaic.Lib.Pipeline.Value
import Idealize.ShloMosaic.Lib.ValueIdx

noncomputable section

namespace Cert.Sage

open Idealize.ShloMosaic Idealize.ShloMosaic.ValueIdx Cert.KernelIdeal Cert.KernelIdeal.Facts₀

variable [Cert.KernelIdeal.Facts₀]

/-- max(in-degree, 1) at a node, the word of `1.0` read as one. -/
theorem degreeMax_apply (e : IVec S2x1600000 32) (j : S100000.Idx) : degreeMax e j = max (degree e j) 1 := by
  unfold degreeMax
  rw [maximumf_apply, broadcastInDim_apply _ bcast_S_S100000 _ j ix0 (fun a => a.elim0), constant_apply, one_word]

/-- The reciprocal of max(in-degree, 1), one per node, as the column the kernel program broadcasts. -/
def invDegree (e : IVec S2x1600000 32) : FVec Ideal S100000x1 .f32 :=
  broadcastInDim S100000x1 ![0] bcast_S100000_S100000x1_0
    (Host.divf (broadcastInDim S100000 ![] bcast_S_S100000 (constant (F := Ideal) S_ .f32 0x3F800000#32)) (degreeMax e))

/-- The host's division of two arrays, at an index, is the extended reals' division of the entries. -/
theorem hostDivf_at {s : Shape} (a b : FVec Ideal s .f32) (i : s.Idx) : Host.divf a b i = Ideal.div (a i) (b i) := rfl

/-- The array of ones reads one at every node. -/
theorem ones_at (j : S100000.Idx) :
    broadcastInDim S100000 ![] bcast_S_S100000 (constant (F := Ideal) S_ .f32 0x3F800000#32) j = 1 := by
  rw [broadcastInDim_apply _ bcast_S_S100000 _ j ix0 (fun a => a.elim0), constant_apply, one_word]

/-- The column at node `p` is 1 / max(deg p, 1). -/
theorem invDegree_apply (e : IVec S2x1600000 32) (p : Fin 100000) :
    invDegree e (ix2 p (0 : Fin 1)) = Ideal.div 1 (degreeMax e (ix1 p)) := by
  unfold invDegree
  rw [broadcastInDim_apply _ bcast_S100000_S100000x1_0 _ (ix2 p (0 : Fin 1)) (ix1 p) (fun a => match a with
    | ⟨0, _⟩ => by show p.val = if (100000 : Nat) = 1 then 0 else p.val; rw [if_neg (by decide)]),
    hostDivf_at, ones_at]

/-- An edge sum of 64 features times the broadcast reciprocal column is the mean over incoming edges. -/
theorem scaled64_eq (s : FVec Ideal S100000x64 .f32) (e : IVec S2x1600000 32) :
    mulf s (broadcastInDim S100000x64 ![0, 1] bcast_S100000x1_S100000x64_0_1 (invDegree e))
      = fun i => Ideal.div (s i) (degreeMax e (ix1 ⟨(i 0).val, (i 0).isLt⟩)) := by
  funext i
  rw [mulf_apply, broadcastInDim_apply _ bcast_S100000x1_S100000x64_0_1 (invDegree e) i
    (ix2 (⟨(i 0).val, (i 0).isLt⟩ : Fin 100000) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl]),
    invDegree_apply, degreeMax_apply, mul_inv_degree]

/-- The same for 128 features. -/
theorem scaled128_eq (s : FVec Ideal S100000x128 .f32) (e : IVec S2x1600000 32) :
    mulf s (broadcastInDim S100000x128 ![0, 1] bcast_S100000x1_S100000x128_0_1 (invDegree e))
      = fun i => Ideal.div (s i) (degreeMax e (ix1 ⟨(i 0).val, (i 0).isLt⟩)) := by
  funext i
  rw [mulf_apply, broadcastInDim_apply _ bcast_S100000x1_S100000x128_0_1 (invDegree e) i
    (ix2 (⟨(i 0).val, (i 0).isLt⟩ : Fin 100000) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl]),
    invDegree_apply, degreeMax_apply, mul_inv_degree]

/-- The mean of 64 features is the edge sum times the broadcast reciprocal column. -/
theorem mean64_eq_scaled (x : FVec Ideal S100000x64 .f32) (e : IVec S2x1600000 32) :
    mulf (edgeSum64 x e) (broadcastInDim S100000x64 ![0, 1] bcast_S100000x1_S100000x64_0_1 (invDegree e)) = mean64 x e :=
  scaled64_eq (edgeSum64 x e) e

/-- The mean of 128 features is the edge sum times the broadcast reciprocal column. -/
theorem mean128_eq_scaled (h : FVec Ideal S100000x128 .f32) (e : IVec S2x1600000 32) :
    mulf (edgeSum128 h e) (broadcastInDim S100000x128 ![0, 1] bcast_S100000x1_S100000x128_0_1 (invDegree e)) = mean128 h e :=
  scaled128_eq (edgeSum128 h e) e

/-- A 128-vector reshaped to one row reads the vector along the row. -/
theorem reshape_row128 (b : FVec Ideal S128 .f32) : shapeCast S1x128 b shapeCasts_S128_S1x128 = row128 b := by
  funext i
  refine shapeCast_apply b shapeCasts_S128_S1x128 i (ix1 ⟨(i 1).val, (i 1).isLt⟩) ?_
  rw [Shape.rowMajor_val_one, Shape.rowMajor_val_two]
  have h0 : (i 0).val < 1 := (i 0).isLt
  show (i 1).val = (i 0).val * 128 + (i 1).val
  omega

/-- A 64-vector reshaped to one row reads the vector along the row. -/
theorem reshape_row64 (b : FVec Ideal S64 .f32) : shapeCast S1x64 b shapeCasts_S64_S1x64 = row64 b := by
  funext i
  refine shapeCast_apply b shapeCasts_S64_S1x64 i (ix1 ⟨(i 1).val, (i 1).isLt⟩) ?_
  rw [Shape.rowMajor_val_one, Shape.rowMajor_val_two]
  have h0 : (i 0).val < 1 := (i 0).isLt
  show (i 1).val = (i 0).val * 64 + (i 1).val
  omega

end Cert.Sage

end
-- ==== Proof.HostReads.lean ====
/-
  The kernel program's host operations, read.

  Between its launch and its return the program's buffers pass four boundaries: after the first stretch of host
  operations (where the first kernel is entered), after the first kernel, after the second stretch (where the second
  kernel is entered), after the second kernel. This module reads, at the two entries, each array a kernel takes in:
  the first stretch computes the two index rows of the edge list, the reciprocal column 1 / max(deg, 1), the edge sums of
  the input features times that column — the specification's mean over incoming edges — and the bias as a row; the first
  kernel writes only its own output, so the index rows, the reciprocal column and the arguments cross it unchanged;
  the second stretch repeats the gather, the scatter-add and the product on whatever the first kernel left.
-/
import proofs.«147514_j47115791237141_1_alg».proof.Proof.Gen.KernelIdeal.Frame
import proofs.«147514_j47115791237141_1_alg».proof.Proof.SageSpec
import proofs.«147514_j47115791237141_1_alg».proof.Proof.MeanForms
import Idealize.ShloMosaic.Lib.StableHlo.Run

noncomputable section

namespace Cert.Sage.Kernel

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments -/

/-- The launch contents of the node features. -/
abbrev aX (c : Dev nD) : FVec Ideal S100000x64 .f32 := m ((c : Thread nD τ).loc main_arg0)
/-- The launch contents of the edge list. -/
abbrev aE (c : Dev nD) : IVec S2x1600000 32 := m ((c : Thread nD τ).loc main_arg1)
/-- The launch contents of layer 1's weights on the mean. -/
abbrev aW1l (c : Dev nD) : FVec Ideal S128x64 .f32 := m ((c : Thread nD τ).loc main_arg2)
/-- The launch contents of layer 1's weights on the node itself. -/
abbrev aW1r (c : Dev nD) : FVec Ideal S128x64 .f32 := m ((c : Thread nD τ).loc main_arg3)
/-- The launch contents of layer 1's bias. -/
abbrev aB1 (c : Dev nD) : FVec Ideal S128 .f32 := m ((c : Thread nD τ).loc main_arg4)
/-- The launch contents of layer 2's weights on the mean. -/
abbrev aW2l (c : Dev nD) : FVec Ideal S64x128 .f32 := m ((c : Thread nD τ).loc main_arg5)
/-- The launch contents of layer 2's weights on the node itself. -/
abbrev aW2r (c : Dev nD) : FVec Ideal S64x128 .f32 := m ((c : Thread nD τ).loc main_arg6)
/-- The launch contents of layer 2's bias. -/
abbrev aB2 (c : Dev nD) : FVec Ideal S64 .f32 := m ((c : Thread nD τ).loc main_arg7)

/-! ## Where the first kernel is entered: after the first stretch of host operations -/

/-- The flat row of edge sources. -/
theorem W1_srcRow (c : Dev nD) : W1 m ρ c (Proc.devRef .tc main_v1) = srcRow (aE m c) := by
  show StableHlo.after hostOps0 (W0 m ρ c) (Proc.devRef .tc main_v1) = _
  dsimp only [hostOps0]
  after_results_simp
  rfl

/-- The flat row of edge destinations. -/
theorem W1_dstRow (c : Dev nD) : W1 m ρ c (Proc.devRef .tc main_v3) = dstRow (aE m c) := by
  show StableHlo.after hostOps0 (W0 m ρ c) (Proc.devRef .tc main_v3) = _
  dsimp only [hostOps0]
  after_results_simp
  rfl

/-- The reciprocal column 1 / max(deg, 1). -/
theorem W1_inv (c : Dev nD) : W1 m ρ c (Proc.devRef .tc main_v12) = invDegree (aE m c) := by
  show StableHlo.after hostOps0 (W0 m ρ c) (Proc.devRef .tc main_v12) = _
  dsimp only [hostOps0]
  after_results_simp
  rfl

/-- The first kernel's aggregated input: the edge sums of the features times the reciprocal column, which is the
    mean over incoming edges. -/
theorem W1_agg (c : Dev nD) : W1 m ρ c (Proc.devRef .tc main_v24) = mean64 (aX m c) (aE m c) := by
  rw [← mean64_eq_scaled]
  show StableHlo.after hostOps0 (W0 m ρ c) (Proc.devRef .tc main_v24) = _
  dsimp only [hostOps0]
  after_results_simp
  rfl

/-- The first kernel's bias operand: layer 1's bias as a row. -/
theorem W1_bias (c : Dev nD) : W1 m ρ c (Proc.devRef .tc main_v25) = row128 (aB1 m c) := by
  rw [← reshape_row128]
  show StableHlo.after hostOps0 (W0 m ρ c) (Proc.devRef .tc main_v25) = _
  dsimp only [hostOps0]
  after_results_simp
  rfl

theorem W1_main_arg0 (c : Dev nD) : W1 m ρ c (Proc.devRef .tc main_arg0) = aX m c := by
  show StableHlo.after hostOps0 (W0 m ρ c) (Proc.devRef .tc main_arg0) = _
  dsimp only [hostOps0]
  after_results_simp

theorem W1_main_arg2 (c : Dev nD) : W1 m ρ c (Proc.devRef .tc main_arg2) = aW1l m c := by
  show StableHlo.after hostOps0 (W0 m ρ c) (Proc.devRef .tc main_arg2) = _
  dsimp only [hostOps0]
  after_results_simp

theorem W1_main_arg3 (c : Dev nD) : W1 m ρ c (Proc.devRef .tc main_arg3) = aW1r m c := by
  show StableHlo.after hostOps0 (W0 m ρ c) (Proc.devRef .tc main_arg3) = _
  dsimp only [hostOps0]
  after_results_simp

theorem W1_main_arg5 (c : Dev nD) : W1 m ρ c (Proc.devRef .tc main_arg5) = aW2l m c := by
  show StableHlo.after hostOps0 (W0 m ρ c) (Proc.devRef .tc main_arg5) = _
  dsimp only [hostOps0]
  after_results_simp

theorem W1_main_arg6 (c : Dev nD) : W1 m ρ c (Proc.devRef .tc main_arg6) = aW2r m c := by
  show StableHlo.after hostOps0 (W0 m ρ c) (Proc.devRef .tc main_arg6) = _
  dsimp only [hostOps0]
  after_results_simp

theorem W1_main_arg7 (c : Dev nD) : W1 m ρ c (Proc.devRef .tc main_arg7) = aB2 m c := by
  show StableHlo.after hostOps0 (W0 m ρ c) (Proc.devRef .tc main_arg7) = _
  dsimp only [hostOps0]
  after_results_simp

/-! ## Across the first kernel: everything but its own output is as it was entered -/

theorem W2_srcRow (c : Dev nD) : W2 m ρ c (Proc.devRef .tc main_v1) = srcRow (aE m c) :=
  (W2_of_ne m ρ c main_v1 (by decide)).trans (W1_srcRow m ρ c)
theorem W2_dstRow (c : Dev nD) : W2 m ρ c (Proc.devRef .tc main_v3) = dstRow (aE m c) :=
  (W2_of_ne m ρ c main_v3 (by decide)).trans (W1_dstRow m ρ c)
theorem W2_inv (c : Dev nD) : W2 m ρ c (Proc.devRef .tc main_v12) = invDegree (aE m c) :=
  (W2_of_ne m ρ c main_v12 (by decide)).trans (W1_inv m ρ c)
theorem W2_main_arg5 (c : Dev nD) : W2 m ρ c (Proc.devRef .tc main_arg5) = aW2l m c :=
  (W2_of_ne m ρ c main_arg5 (by decide)).trans (W1_main_arg5 m ρ c)
theorem W2_main_arg6 (c : Dev nD) : W2 m ρ c (Proc.devRef .tc main_arg6) = aW2r m c :=
  (W2_of_ne m ρ c main_arg6 (by decide)).trans (W1_main_arg6 m ρ c)
theorem W2_main_arg7 (c : Dev nD) : W2 m ρ c (Proc.devRef .tc main_arg7) = aB2 m c :=
  (W2_of_ne m ρ c main_arg7 (by decide)).trans (W1_main_arg7 m ρ c)

/-! ## Where the second kernel is entered: after the second stretch, from what the first kernel left -/

/-- The second kernel's aggregated input, whatever hidden features `h` the first kernel left: their edge sums times
    the reciprocal column, which is their mean over incoming edges. -/
theorem W3_agg (c : Dev nD) (h : FVec Ideal S100000x128 .f32) (hh : W2 m ρ c (Proc.devRef .tc main_v26) = h) :
    W3 m ρ c (Proc.devRef .tc main_v38) = mean128 h (aE m c) := by
  rw [← mean128_eq_scaled]
  show StableHlo.after hostOps1 (W2 m ρ c) (Proc.devRef .tc main_v38) = _
  dsimp only [hostOps1]
  after_results_simp
  rw [hh, W2_srcRow, W2_dstRow, W2_inv]
  rfl

/-- The second kernel's own-features input is what the first kernel left. -/
theorem W3_hidden (c : Dev nD) : W3 m ρ c (Proc.devRef .tc main_v26) = W2 m ρ c (Proc.devRef .tc main_v26) := by
  show StableHlo.after hostOps1 (W2 m ρ c) (Proc.devRef .tc main_v26) = _
  dsimp only [hostOps1]
  after_results_simp

/-- The second kernel's bias operand: layer 2's bias as a row. -/
theorem W3_bias (c : Dev nD) : W3 m ρ c (Proc.devRef .tc main_v39) = row64 (aB2 m c) := by
  rw [← reshape_row64]
  show StableHlo.after hostOps1 (W2 m ρ c) (Proc.devRef .tc main_v39) = _
  dsimp only [hostOps1]
  after_results_simp
  rw [W2_main_arg7]
  rfl

theorem W3_main_arg5 (c : Dev nD) : W3 m ρ c (Proc.devRef .tc main_arg5) = aW2l m c := by
  show StableHlo.after hostOps1 (W2 m ρ c) (Proc.devRef .tc main_arg5) = _
  dsimp only [hostOps1]
  after_results_simp
  exact W2_main_arg5 m ρ c

theorem W3_main_arg6 (c : Dev nD) : W3 m ρ c (Proc.devRef .tc main_arg6) = aW2r m c := by
  show StableHlo.after hostOps1 (W2 m ρ c) (Proc.devRef .tc main_arg6) = _
  dsimp only [hostOps1]
  after_results_simp
  exact W2_main_arg6 m ρ c

end Cert.Sage.Kernel

end
-- ==== Proof.RegionValue.lean ====
/-
  The value of each of the two pipelined regions: the output array, after all fifty write-backs, as one function of
  the region's five input arrays.

  A region sweeps a grid of 50 points. Point `t` is handed rows `2000·t … 2000·t + 1999` of the two 100 000-row
  operands (the neighbourhood means and the node's own features), the whole of the two weight matrices and the whole of
  the one-row bias, and leaves one block of 2000 output rows, which is written back to rows `2000·t …` of the result.
  Entry `(r, q)` of that block is
      act( ∑ₖ mean[2000·t + r, k] · Wl[q, k]  +  ∑ₖ feat[2000·t + r, k] · Wr[q, k]  +  b[0, q] ),
  the positive part in the first region and the logistic function in the second: both matrix products contract the
  LAST axis of both operands, so that a weight matrix is read row `q`, column `k`. The narrowing of the operands to
  sixteen-bit floats before the products is the identity on the extended reals, and the products accumulate onto a zero
  array.

  The argument, for each region: (1) the block's payload read at `(r, q)` is the displayed expression of the five
  loaded blocks; (2) every loaded block read at an entry is the array read at the entry's place in it, the place being
  block index × block size + the coordinate inside the block, and the block indices are `(t, 0)` for the row-blocked
  windows and `(0, 0)` for the whole-array ones; (3) so what point `t` writes back is block `t` of the dense layer of
  the specification; (4) the fifty blocks cover the array, row `p` lying in the block of point `p / 2000`; hence the
  array ends as the dense layer.
-/
import proofs.«147514_j47115791237141_1_alg».proof.Proof.Gen.KernelIdeal.Frame
import proofs.«147514_j47115791237141_1_alg».proof.Proof.SageSpec
import proofs.«147514_j47115791237141_1_alg».proof.Proof.SageLaws
import Idealize.ShloMosaic.Lib.Pipeline.Value
import Idealize.ShloMosaic.Lib.ValueIdx
import Idealize.ShloMosaic.Lib.ValueLayout
import Idealize.ShloMosaic.PureOps.Ideal.Laws

noncomputable section

namespace Cert.Sage.Region

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The two offsets of a whole-block access are both zero. -/
theorem offsets_zero : (![0, 0] : Fin 2 → Nat) = fun _ => 0 := funext fun a => by fin_cases a <;> rfl

/-- The logistic function applied to an array acts entry by entry. -/
theorem logistic_apply {s : Shape} {φ : FTy} (a : FVec Ideal s φ) (i : s.Idx) : logistic a i = Ideal.logistic (a i) := rfl

/-! # The first region: 64 channels in, 128 out, positive part -/

/-! ## The contraction of the first layer's products, axis by axis

Output entry `(r, q)` and contraction index `k` read the left operand at `(r, k)` and the right operand at `(q, k)`. -/

theorem lhs_dot1_0 (i : S2000x128.Idx) (q : dot_S2000x64_S128x64_S2000x128_1_1_0_0_n_n.contr.Idx) :
    (dot_S2000x64_S128x64_S2000x128_1_1_0_0_n_n.lhsIdx i q 0).val = (i 0).val := by
  unfold DotDims.lhsIdx
  rw [dif_neg (show ¬(0 : Fin S2000x64.rank) ∈ dot_S2000x64_S128x64_S2000x128_1_1_0_0_n_n.lhsBatch by decide), dif_pos (show (0 : Fin S2000x64.rank) ∈ dot_S2000x64_S128x64_S2000x128_1_1_0_0_n_n.lhsNonContracting by decide)]
  rfl
theorem lhs_dot1_1 (i : S2000x128.Idx) (q : dot_S2000x64_S128x64_S2000x128_1_1_0_0_n_n.contr.Idx) :
    (dot_S2000x64_S128x64_S2000x128_1_1_0_0_n_n.lhsIdx i q 1).val = (q ⟨0, by decide⟩).val :=
  dot_S2000x64_S128x64_S2000x128_1_1_0_0_n_n.lhsIdx_val_of_single rfl i q
theorem rhs_dot1_0 (i : S2000x128.Idx) (q : dot_S2000x64_S128x64_S2000x128_1_1_0_0_n_n.contr.Idx) :
    (dot_S2000x64_S128x64_S2000x128_1_1_0_0_n_n.rhsIdx i q 0).val = (i 1).val := by
  unfold DotDims.rhsIdx
  rw [dif_neg (show ¬(0 : Fin S128x64.rank) ∈ dot_S2000x64_S128x64_S2000x128_1_1_0_0_n_n.rhsBatch by decide), dif_pos (show (0 : Fin S128x64.rank) ∈ dot_S2000x64_S128x64_S2000x128_1_1_0_0_n_n.rhsNonContracting by decide)]
  rfl
theorem rhs_dot1_1 (i : S2000x128.Idx) (q : dot_S2000x64_S128x64_S2000x128_1_1_0_0_n_n.contr.Idx) :
    (dot_S2000x64_S128x64_S2000x128_1_1_0_0_n_n.rhsIdx i q 1).val = (q ⟨0, by decide⟩).val :=
  dot_S2000x64_S128x64_S2000x128_1_1_0_0_n_n.rhsIdx_val_of_single rfl i q

/-- A product of a 2000×64 block with a 128×64 matrix over the last axis of both, accumulated onto zero, at `(r, q)`:
    `∑ₖ a[r, k] · w[q, k]`. -/
theorem matmul1_apply (a : FVec Ideal S2000x64 .bf16) (w : FVec Ideal S128x64 .bf16) (r : Fin 2000) (q : Fin 128) :
    matmul dot_S2000x64_S128x64_S2000x128_1_1_0_0_n_n none a w (constant (F := Ideal) S2000x128 .f32 0x00000000#32) (ix2 r q)
      = ∑ k : Fin 64, a (ix2 r k) * w (ix2 q k) := by
  refine (Ideal.matmul_constant_zero_apply dot_S2000x64_S128x64_S2000x128_1_1_0_0_n_n none a w (ix2 r q)).trans ?_
  rw [← Equiv.sum_comp (contrEquiv1 dot_S2000x64_S128x64_S2000x128_1_1_0_0_n_n 64 rfl rfl).symm]
  refine Finset.sum_congr rfl fun k _ => ?_
  have hk := contrEquiv1_symm_val dot_S2000x64_S128x64_S2000x128_1_1_0_0_n_n 64 rfl rfl k
  have el : dot_S2000x64_S128x64_S2000x128_1_1_0_0_n_n.lhsIdx (ix2 r q) ((contrEquiv1 dot_S2000x64_S128x64_S2000x128_1_1_0_0_n_n 64 rfl rfl).symm k) = ix2 r k := funext fun a => Fin.ext (by
    match a with
    | ⟨0, _⟩ => exact lhs_dot1_0 _ _
    | ⟨1, _⟩ => exact (lhs_dot1_1 _ _).trans hk)
  have er : dot_S2000x64_S128x64_S2000x128_1_1_0_0_n_n.rhsIdx (ix2 r q) ((contrEquiv1 dot_S2000x64_S128x64_S2000x128_1_1_0_0_n_n 64 rfl rfl).symm k) = ix2 q k := funext fun a => Fin.ext (by
    match a with
    | ⟨0, _⟩ => exact rhs_dot1_0 _ _
    | ⟨1, _⟩ => exact (rhs_dot1_1 _ _).trans hk)
  rw [el, er]

/-! ## The block's payload at an entry -/

/-- Entry `(r, q)` of the block the first region's body stores: the positive part of the two products' sum plus the bias.
    The arguments are the loaded blocks in the order means, features, left weights, right weights, bias. -/
theorem layer1_block_apply (x0 x1 : Vec Ideal S2000x64 .f32) (x2 x4 : Vec Ideal S128x64 .f32) (x3 : Vec Ideal S1x128 .f32)
    (r : Fin 2000) (q : Fin 128) :
    k0_pay1 (F := Ideal) x0 x1 x2 x4 x3 (ix2 r q)
      = max (((∑ k : Fin 64, x0 (ix2 r k) * x2 (ix2 q k)) + (∑ k : Fin 64, x1 (ix2 r k) * x4 (ix2 q k))) + x3 (ix2 0 q)) 0 := by
  unfold k0_pay1
  rw [maximumf_apply, addf_apply, addf_apply, matmul1_apply, matmul1_apply, broadcast_apply,
    shapeCast_self, shapeCast_self, broadcastTo_1b_ab_apply]
  simp only [truncf_apply]
  exact congrArg (max _) Cert.Sage.zero_word

/-! ## The blocks of the first region -/

section Region0

variable (V : (c : Dev nD) → (b : Ref sig .tc) → Buf (Elt Ideal) ((c : Thread nD τ).loc b))

/-- Row `r` of the block of grid point `t` is row `2000·t + r` of a 100 000-row array. -/
def rowOf0 (t : Fin cfg0.N) (r : Fin 2000) : Fin 100000 :=
  ⟨2000 * t.val + r.val, by have h := t.isLt; have hN : cfg0.N = 50 := N_0; have := r.isLt; omega⟩

/-- The block indices of the six windows at every grid point: the two row-blocked operands and the result are at block
    `(t, 0)`, the two weight matrices and the bias at block `(0, 0)`. -/
theorem blockIdx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- The means' block at `t`, entry `(r, k)`, is the means' array at `(2000·t + r, k)`. -/
theorem meanBlock0 (c : Dev nD) (t : Fin cfg0.N) (r : Fin 2000) (k : Fin 64) :
    (iblk0 V c 0 t : Vec Ideal S2000x64 .f32) (ix2 r k)
      = (V c main_v24 : S100000x64.Idx → EReal) (ix2 (rowOf0 t r) k) := by
  obtain ⟨⟨e0, e1⟩, -⟩ := blockIdx0 t
  unfold iblk0
  rw [View.read_apply]
  show V c main_v24 _ = V c main_v24 _
  congr 1
  funext a; apply Fin.ext
  match a with
  | ⟨0, _⟩ => show win0_0.index t (0 : Fin 2) * 2000 + 1 * r.val = 2000 * t.val + r.val; omega
  | ⟨1, _⟩ => show win0_0.index t (1 : Fin 2) * 64 + 1 * k.val = k.val; omega

/-- The features' block at `t`, entry `(r, k)`, is the features' array at `(2000·t + r, k)`. -/
theorem featBlock0 (c : Dev nD) (t : Fin cfg0.N) (r : Fin 2000) (k : Fin 64) :
    (iblk0 V c 1 t : Vec Ideal S2000x64 .f32) (ix2 r k)
      = (V c main_arg0 : S100000x64.Idx → EReal) (ix2 (rowOf0 t r) k) := by
  obtain ⟨-, ⟨e0, e1⟩, -⟩ := blockIdx0 t
  unfold iblk0
  rw [View.read_apply]
  show V c main_arg0 _ = V c main_arg0 _
  congr 1
  funext a; apply Fin.ext
  match a with
  | ⟨0, _⟩ => show win0_1.index t (0 : Fin 2) * 2000 + 1 * r.val = 2000 * t.val + r.val; omega
  | ⟨1, _⟩ => show win0_1.index t (1 : Fin 2) * 64 + 1 * k.val = k.val; omega

/-- The left weights' one block is the matrix. -/
theorem leftBlock0 (c : Dev nD) (t : Fin cfg0.N) (q : Fin 128) (k : Fin 64) :
    (iblk0 V c 2 t : Vec Ideal S128x64 .f32) (ix2 q k) = (V c main_arg2 : S128x64.Idx → EReal) (ix2 q k) := by
  obtain ⟨-, -, ⟨e0, e1⟩, -⟩ := blockIdx0 t
  unfold iblk0
  rw [View.read_apply]
  show V c main_arg2 _ = V c main_arg2 _
  congr 1
  funext a; apply Fin.ext
  match a with
  | ⟨0, _⟩ => show win0_2.index t (0 : Fin 2) * 128 + 1 * q.val = q.val; omega
  | ⟨1, _⟩ => show win0_2.index t (1 : Fin 2) * 64 + 1 * k.val = k.val; omega

/-- The bias's one block is the row. -/
theorem biasBlock0 (c : Dev nD) (t : Fin cfg0.N) (q : Fin 128) :
    (iblk0 V c 3 t : Vec Ideal S1x128 .f32) (ix2 (0 : Fin 1) q) = (V c main_v25 : S1x128.Idx → EReal) (ix2 (0 : Fin 1) q) := by
  obtain ⟨-, -, -, ⟨e0, e1⟩, -⟩ := blockIdx0 t
  unfold iblk0
  rw [View.read_apply]
  show V c main_v25 _ = V c main_v25 _
  congr 1
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- The right weights' one block is the matrix. -/
theorem rightBlock0 (c : Dev nD) (t : Fin cfg0.N) (q : Fin 128) (k : Fin 64) :
    (iblk0 V c 4 t : Vec Ideal S128x64 .f32) (ix2 q k) = (V c main_arg3 : S128x64.Idx → EReal) (ix2 q k) := by
  obtain ⟨-, -, -, -, ⟨e0, e1⟩, -⟩ := blockIdx0 t
  unfold iblk0
  rw [View.read_apply]
  show V c main_arg3 _ = V c main_arg3 _
  congr 1
  funext a; apply Fin.ext
  match a with
  | ⟨0, _⟩ => show win0_4.index t (0 : Fin 2) * 128 + 1 * q.val = q.val; omega
  | ⟨1, _⟩ => show win0_4.index t (1 : Fin 2) * 64 + 1 * k.val = k.val; omega

/-- Entry `(r, q)` of the result's block at `t` sits at `(2000·t + r, q)` of the result. -/
theorem outIdx0 (t : Fin cfg0.N) (r : Fin 2000) (q : Fin 128) :
    (((cfg0.win 5).blk t).view.emb (ix2 r q) : S100000x128.Idx) = ix2 (rowOf0 t r) q := by
  obtain ⟨-, -, -, -, -, ⟨e0, e1⟩⟩ := blockIdx0 t
  funext a; apply Fin.ext
  match a with
  | ⟨0, _⟩ => show win0_5.index t (0 : Fin 2) * 2000 + 1 * r.val = 2000 * t.val + r.val; omega
  | ⟨1, _⟩ => show win0_5.index t (1 : Fin 2) * 128 + 1 * q.val = q.val; omega

/-- What point `t` writes back is block `t` of the first dense layer of the five arrays as the region finds them. -/
theorem flushed0_eq (c : Dev nD) (t : Fin cfg0.N) :
    (dat0 (F := Ideal) V c).flushed 5 t
      = ((cfg0.win 5).blk t).view.read (Elt Ideal)
          (Cert.Sage.dense1 (V c main_v24) (V c main_arg0) (V c main_arg2) (V c main_v25) (V c main_arg3)) := by
  show (cfg0.win 5).cut (grid0.coords t) ((dat0 (F := Ideal) V c).after 5 t) = _
  rw [after0_5]
  unfold out0_5
  rw [View.canon_unit_zero offsets_zero]
  simp only [View.ld_unit_zero (S := S2000x64) offsets_zero, View.ld_unit_zero (S := S128x64) offsets_zero,
    View.ld_unit_zero (S := S1x128) offsets_zero]
  funext j
  obtain ⟨r, q, rfl⟩ : ∃ (r : Fin 2000) (q : Fin 128), j = ix2 r q := ⟨j 0, j 1, eq_ix2 j⟩
  show k0_pay1 (F := Ideal) (iblk0 V c 0 t) (iblk0 V c 1 t) (iblk0 V c 2 t) (iblk0 V c 4 t) (iblk0 V c 3 t) ((cfg0.win 5).xinj (grid0.coords t) (ix2 r q))
    = Cert.Sage.dense1 (V c main_v24) (V c main_arg0) (V c main_arg2) (V c main_v25) (V c main_arg3) (((cfg0.win 5).blk t).view.emb (ix2 r q))
  have hx : (cfg0.win 5).xinj (grid0.coords t) (ix2 r q) = ix2 r q :=
    funext fun a => by match a with | ⟨0, _⟩ => rfl | ⟨1, _⟩ => rfl
  rw [hx, outIdx0, layer1_block_apply, Cert.Sage.dense1_apply]
  unfold Cert.Sage.dense1At
  simp only [meanBlock0, featBlock0, leftBlock0, biasBlock0, rightBlock0]

/-- An index of the result lies in point `t`'s block iff each coordinate lies in the block's range on its axis. -/
theorem mem_outBlock0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every index of the result is written back by some point: row `p` by point `p / 2000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, -, ⟨e0, e1⟩⟩ := blockIdx0 t
  refine ⟨t, flush0_5 t, ?_⟩
  rw [mem_outBlock0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE FIRST REGION'S RESULT: after the fifty write-backs the result array is the first dense layer of the means, the
    features, the left weights, the bias row and the right weights as the region finds them. -/
theorem region0_value (c : Dev nD) :
    (dat0 (F := Ideal) V c).arrAt 5 cfg0.N
      = Cert.Sage.dense1 (V c main_v24) (V c main_arg0) (V c main_arg2) (V c main_v25) (V c main_arg3) :=
  (dat0 (F := Ideal) V c).arrAt_eq_of_cover 5 _ (fun t _ => flushed0_eq V c t) cover0

end Region0

/-! # The second region: 128 channels in, 64 out, logistic function -/

/-! ## The contraction of the second layer's products, axis by axis

Output entry `(r, q)` and contraction index `k` read the left operand at `(r, k)` and the right operand at `(q, k)`. -/

theorem lhs_dot2_0 (i : S2000x64.Idx) (q : dot_S2000x128_S64x128_S2000x64_1_1_0_0_n_n.contr.Idx) :
    (dot_S2000x128_S64x128_S2000x64_1_1_0_0_n_n.lhsIdx i q 0).val = (i 0).val := by
  unfold DotDims.lhsIdx
  rw [dif_neg (show ¬(0 : Fin S2000x128.rank) ∈ dot_S2000x128_S64x128_S2000x64_1_1_0_0_n_n.lhsBatch by decide), dif_pos (show (0 : Fin S2000x128.rank) ∈ dot_S2000x128_S64x128_S2000x64_1_1_0_0_n_n.lhsNonContracting by decide)]
  rfl
theorem lhs_dot2_1 (i : S2000x64.Idx) (q : dot_S2000x128_S64x128_S2000x64_1_1_0_0_n_n.contr.Idx) :
    (dot_S2000x128_S64x128_S2000x64_1_1_0_0_n_n.lhsIdx i q 1).val = (q ⟨0, by decide⟩).val :=
  dot_S2000x128_S64x128_S2000x64_1_1_0_0_n_n.lhsIdx_val_of_single rfl i q
theorem rhs_dot2_0 (i : S2000x64.Idx) (q : dot_S2000x128_S64x128_S2000x64_1_1_0_0_n_n.contr.Idx) :
    (dot_S2000x128_S64x128_S2000x64_1_1_0_0_n_n.rhsIdx i q 0).val = (i 1).val := by
  unfold DotDims.rhsIdx
  rw [dif_neg (show ¬(0 : Fin S64x128.rank) ∈ dot_S2000x128_S64x128_S2000x64_1_1_0_0_n_n.rhsBatch by decide), dif_pos (show (0 : Fin S64x128.rank) ∈ dot_S2000x128_S64x128_S2000x64_1_1_0_0_n_n.rhsNonContracting by decide)]
  rfl
theorem rhs_dot2_1 (i : S2000x64.Idx) (q : dot_S2000x128_S64x128_S2000x64_1_1_0_0_n_n.contr.Idx) :
    (dot_S2000x128_S64x128_S2000x64_1_1_0_0_n_n.rhsIdx i q 1).val = (q ⟨0, by decide⟩).val :=
  dot_S2000x128_S64x128_S2000x64_1_1_0_0_n_n.rhsIdx_val_of_single rfl i q

/-- A product of a 2000×128 block with a 64×128 matrix over the last axis of both, accumulated onto zero, at `(r, q)`:
    `∑ₖ a[r, k] · w[q, k]`. -/
theorem matmul2_apply (a : FVec Ideal S2000x128 .bf16) (w : FVec Ideal S64x128 .bf16) (r : Fin 2000) (q : Fin 64) :
    matmul dot_S2000x128_S64x128_S2000x64_1_1_0_0_n_n none a w (constant (F := Ideal) S2000x64 .f32 0x00000000#32) (ix2 r q)
      = ∑ k : Fin 128, a (ix2 r k) * w (ix2 q k) := by
  refine (Ideal.matmul_constant_zero_apply dot_S2000x128_S64x128_S2000x64_1_1_0_0_n_n none a w (ix2 r q)).trans ?_
  rw [← Equiv.sum_comp (contrEquiv1 dot_S2000x128_S64x128_S2000x64_1_1_0_0_n_n 128 rfl rfl).symm]
  refine Finset.sum_congr rfl fun k _ => ?_
  have hk := contrEquiv1_symm_val dot_S2000x128_S64x128_S2000x64_1_1_0_0_n_n 128 rfl rfl k
  have el : dot_S2000x128_S64x128_S2000x64_1_1_0_0_n_n.lhsIdx (ix2 r q) ((contrEquiv1 dot_S2000x128_S64x128_S2000x64_1_1_0_0_n_n 128 rfl rfl).symm k) = ix2 r k := funext fun a => Fin.ext (by
    match a with
    | ⟨0, _⟩ => exact lhs_dot2_0 _ _
    | ⟨1, _⟩ => exact (lhs_dot2_1 _ _).trans hk)
  have er : dot_S2000x128_S64x128_S2000x64_1_1_0_0_n_n.rhsIdx (ix2 r q) ((contrEquiv1 dot_S2000x128_S64x128_S2000x64_1_1_0_0_n_n 128 rfl rfl).symm k) = ix2 q k := funext fun a => Fin.ext (by
    match a with
    | ⟨0, _⟩ => exact rhs_dot2_0 _ _
    | ⟨1, _⟩ => exact (rhs_dot2_1 _ _).trans hk)
  rw [el, er]

/-! ## The block's payload at an entry -/

/-- Entry `(r, q)` of the block the second region's body stores: the logistic function of the two products' sum plus the
    bias. The arguments are the loaded blocks in the order means, hidden features, left weights, right weights, bias. -/
theorem layer2_block_apply (x0 x1 : Vec Ideal S2000x128 .f32) (x2 x4 : Vec Ideal S64x128 .f32) (x3 : Vec Ideal S1x64 .f32)
    (r : Fin 2000) (q : Fin 64) :
    k1_pay1 (F := Ideal) x0 x1 x2 x4 x3 (ix2 r q)
      = Ideal.logistic (((∑ k : Fin 128, x0 (ix2 r k) * x2 (ix2 q k)) + (∑ k : Fin 128, x1 (ix2 r k) * x4 (ix2 q k))) + x3 (ix2 0 q)) := by
  unfold k1_pay1
  rw [logistic_apply, addf_apply, addf_apply, matmul2_apply, matmul2_apply,
    shapeCast_self, shapeCast_self, shapeCast_self, broadcastTo_1b_ab_apply]
  simp only [truncf_apply]

/-! ## The blocks of the second region -/

section Region1

variable (V : (c : Dev nD) → (b : Ref sig .tc) → Buf (Elt Ideal) ((c : Thread nD τ).loc b))

/-- Row `r` of the block of grid point `t` is row `2000·t + r` of a 100 000-row array. -/
def rowOf1 (t : Fin cfg1.N) (r : Fin 2000) : Fin 100000 :=
  ⟨2000 * t.val + r.val, by have h := t.isLt; have hN : cfg1.N = 50 := N_1; have := r.isLt; omega⟩

/-- The block indices of the six windows at every grid point: the two row-blocked operands and the result are at block
    `(t, 0)`, the two weight matrices and the bias at block `(0, 0)`. -/
theorem blockIdx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The means' block at `t`, entry `(r, k)`, is the means' array at `(2000·t + r, k)`. -/
theorem meanBlock1 (c : Dev nD) (t : Fin cfg1.N) (r : Fin 2000) (k : Fin 128) :
    (iblk1 V c 0 t : Vec Ideal S2000x128 .f32) (ix2 r k)
      = (V c main_v38 : S100000x128.Idx → EReal) (ix2 (rowOf1 t r) k) := by
  obtain ⟨⟨e0, e1⟩, -⟩ := blockIdx1 t
  unfold iblk1
  rw [View.read_apply]
  show V c main_v38 _ = V c main_v38 _
  congr 1
  funext a; apply Fin.ext
  match a with
  | ⟨0, _⟩ => show win1_0.index t (0 : Fin 2) * 2000 + 1 * r.val = 2000 * t.val + r.val; omega
  | ⟨1, _⟩ => show win1_0.index t (1 : Fin 2) * 128 + 1 * k.val = k.val; omega

/-- The hidden features' block at `t`, entry `(r, k)`, is the hidden features' array at `(2000·t + r, k)`. -/
theorem featBlock1 (c : Dev nD) (t : Fin cfg1.N) (r : Fin 2000) (k : Fin 128) :
    (iblk1 V c 1 t : Vec Ideal S2000x128 .f32) (ix2 r k)
      = (V c main_v26 : S100000x128.Idx → EReal) (ix2 (rowOf1 t r) k) := by
  obtain ⟨-, ⟨e0, e1⟩, -⟩ := blockIdx1 t
  unfold iblk1
  rw [View.read_apply]
  show V c main_v26 _ = V c main_v26 _
  congr 1
  funext a; apply Fin.ext
  match a with
  | ⟨0, _⟩ => show win1_1.index t (0 : Fin 2) * 2000 + 1 * r.val = 2000 * t.val + r.val; omega
  | ⟨1, _⟩ => show win1_1.index t (1 : Fin 2) * 128 + 1 * k.val = k.val; omega

/-- The left weights' one block is the matrix. -/
theorem leftBlock1 (c : Dev nD) (t : Fin cfg1.N) (q : Fin 64) (k : Fin 128) :
    (iblk1 V c 2 t : Vec Ideal S64x128 .f32) (ix2 q k) = (V c main_arg5 : S64x128.Idx → EReal) (ix2 q k) := by
  obtain ⟨-, -, ⟨e0, e1⟩, -⟩ := blockIdx1 t
  unfold iblk1
  rw [View.read_apply]
  show V c main_arg5 _ = V c main_arg5 _
  congr 1
  funext a; apply Fin.ext
  match a with
  | ⟨0, _⟩ => show win1_2.index t (0 : Fin 2) * 64 + 1 * q.val = q.val; omega
  | ⟨1, _⟩ => show win1_2.index t (1 : Fin 2) * 128 + 1 * k.val = k.val; omega

/-- The bias's one block is the row. -/
theorem biasBlock1 (c : Dev nD) (t : Fin cfg1.N) (q : Fin 64) :
    (iblk1 V c 3 t : Vec Ideal S1x64 .f32) (ix2 (0 : Fin 1) q) = (V c main_v39 : S1x64.Idx → EReal) (ix2 (0 : Fin 1) q) := by
  obtain ⟨-, -, -, ⟨e0, e1⟩, -⟩ := blockIdx1 t
  unfold iblk1
  rw [View.read_apply]
  show V c main_v39 _ = V c main_v39 _
  congr 1
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- The right weights' one block is the matrix. -/
theorem rightBlock1 (c : Dev nD) (t : Fin cfg1.N) (q : Fin 64) (k : Fin 128) :
    (iblk1 V c 4 t : Vec Ideal S64x128 .f32) (ix2 q k) = (V c main_arg6 : S64x128.Idx → EReal) (ix2 q k) := by
  obtain ⟨-, -, -, -, ⟨e0, e1⟩, -⟩ := blockIdx1 t
  unfold iblk1
  rw [View.read_apply]
  show V c main_arg6 _ = V c main_arg6 _
  congr 1
  funext a; apply Fin.ext
  match a with
  | ⟨0, _⟩ => show win1_4.index t (0 : Fin 2) * 64 + 1 * q.val = q.val; omega
  | ⟨1, _⟩ => show win1_4.index t (1 : Fin 2) * 128 + 1 * k.val = k.val; omega

/-- Entry `(r, q)` of the result's block at `t` sits at `(2000·t + r, q)` of the result. -/
theorem outIdx1 (t : Fin cfg1.N) (r : Fin 2000) (q : Fin 64) :
    (((cfg1.win 5).blk t).view.emb (ix2 r q) : S100000x64.Idx) = ix2 (rowOf1 t r) q := by
  obtain ⟨-, -, -, -, -, ⟨e0, e1⟩⟩ := blockIdx1 t
  funext a; apply Fin.ext
  match a with
  | ⟨0, _⟩ => show win1_5.index t (0 : Fin 2) * 2000 + 1 * r.val = 2000 * t.val + r.val; omega
  | ⟨1, _⟩ => show win1_5.index t (1 : Fin 2) * 64 + 1 * q.val = q.val; omega

/-- What point `t` writes back is block `t` of the second dense layer of the five arrays as the region finds them. -/
theorem flushed1_eq (c : Dev nD) (t : Fin cfg1.N) :
    (dat1 (F := Ideal) V c).flushed 5 t
      = ((cfg1.win 5).blk t).view.read (Elt Ideal)
          (Cert.Sage.dense2 (V c main_v38) (V c main_v26) (V c main_arg5) (V c main_v39) (V c main_arg6)) := by
  show (cfg1.win 5).cut (grid1.coords t) ((dat1 (F := Ideal) V c).after 5 t) = _
  rw [after1_5]
  unfold out1_5
  rw [View.canon_unit_zero offsets_zero]
  simp only [View.ld_unit_zero (S := S2000x128) offsets_zero, View.ld_unit_zero (S := S64x128) offsets_zero,
    View.ld_unit_zero (S := S1x64) offsets_zero]
  funext j
  obtain ⟨r, q, rfl⟩ : ∃ (r : Fin 2000) (q : Fin 64), j = ix2 r q := ⟨j 0, j 1, eq_ix2 j⟩
  show k1_pay1 (F := Ideal) (iblk1 V c 0 t) (iblk1 V c 1 t) (iblk1 V c 2 t) (iblk1 V c 4 t) (iblk1 V c 3 t) ((cfg1.win 5).xinj (grid1.coords t) (ix2 r q))
    = Cert.Sage.dense2 (V c main_v38) (V c main_v26) (V c main_arg5) (V c main_v39) (V c main_arg6) (((cfg1.win 5).blk t).view.emb (ix2 r q))
  have hx : (cfg1.win 5).xinj (grid1.coords t) (ix2 r q) = ix2 r q :=
    funext fun a => by match a with | ⟨0, _⟩ => rfl | ⟨1, _⟩ => rfl
  rw [hx, outIdx1, layer2_block_apply, Cert.Sage.dense2_apply]
  unfold Cert.Sage.dense2At
  simp only [meanBlock1, featBlock1, leftBlock1, biasBlock1, rightBlock1]

/-- An index of the result lies in point `t`'s block iff each coordinate lies in the block's range on its axis. -/
theorem mem_outBlock1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v40).slice (win1_5.rect t)).set ↔ _
  rw [View.set_slice_whole, Rect.mem_set_unit]
  exact Iff.rfl

/-- Every index of the result is written back by some point: row `p` by point `p / 2000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, ⟨e0, e1⟩⟩ := blockIdx1 t
  refine ⟨t, flush1_5 t, ?_⟩
  rw [mem_outBlock1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE SECOND REGION'S RESULT: after the fifty write-backs the result array is the second dense layer of the means, the
    hidden features, the left weights, the bias row and the right weights as the region finds them. -/
theorem region1_value (c : Dev nD) :
    (dat1 (F := Ideal) V c).arrAt 5 cfg1.N
      = Cert.Sage.dense2 (V c main_v38) (V c main_v26) (V c main_arg5) (V c main_v39) (V c main_arg6) :=
  (dat1 (F := Ideal) V c).arrAt_eq_of_cover 5 _ (fun t _ => flushed1_eq V c t) cover1

end Region1

end Cert.Sage.Region

end
-- ==== Proof.KernelValue.lean ====
/-
  The kernel program's result is the network of its arguments.

  The first kernel's output array is the dense layer of the five arrays it is entered with, and those are the mean of the
  input features over incoming edges, the features, the two weight matrices and the bias row: so it leaves the hidden
  features. The second stretch of host operations forms the mean of whatever the first kernel left — the hidden features —
  and the second kernel's output array is the dense layer of that mean, the hidden features, layer 2's weights and its bias
  row: the specification's network, and it is the buffer the program returns.
-/
import proofs.«147514_j47115791237141_1_alg».proof.Proof.HostReads
import proofs.«147514_j47115791237141_1_alg».proof.Proof.RegionValue

noncomputable section

namespace Cert.Sage.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the first kernel leaves in its output array: the hidden features. -/
theorem W2_hidden (c : Dev nD) :
    W2 m ρ c (Proc.devRef .tc main_v26) = hidden (aX m c) (aE m c) (aW1l m c) (aW1r m c) (aB1 m c) := by
  refine (W2_arr m ρ c 5).trans ?_
  rw [Cert.Sage.Region.region0_value (V1 m ρ) c]
  show dense1 (W1 m ρ c (Proc.devRef .tc main_v24)) (W1 m ρ c (Proc.devRef .tc main_arg0))
    (W1 m ρ c (Proc.devRef .tc main_arg2)) (W1 m ρ c (Proc.devRef .tc main_v25)) (W1 m ρ c (Proc.devRef .tc main_arg3)) = _
  rw [W1_agg, W1_main_arg0, W1_main_arg2, W1_bias, W1_main_arg3]
  rfl

/-- What the second kernel leaves in its output array, the buffer the program returns: the network. -/
theorem kernel_value (c : Dev nD) :
    W4 m ρ c (Proc.devRef .tc main_v40) = net (aX m c) (aE m c) (aW1l m c) (aW1r m c) (aB1 m c) (aW2l m c) (aW2r m c) (aB2 m c) := by
  refine (W4_arr m ρ c 5).trans ?_
  rw [Cert.Sage.Region.region1_value (V3 m ρ) c]
  show dense2 (W3 m ρ c (Proc.devRef .tc main_v38)) (W3 m ρ c (Proc.devRef .tc main_v26))
    (W3 m ρ c (Proc.devRef .tc main_arg5)) (W3 m ρ c (Proc.devRef .tc main_v39)) (W3 m ρ c (Proc.devRef .tc main_arg6)) = _
  rw [W3_agg m ρ c _ (W2_hidden m ρ c), W3_hidden, W2_hidden, W3_main_arg5, W3_bias, W3_main_arg6]
  rfl

end Cert.Sage.Kernel

end
-- ==== Proof.RefIsNet.lean ====
/-
  The reference program's last stage is the two-layer network of the specification, as whole arrays.

  The reference computes, for every node p and output channel q,
      layer 1:  h[p,q] = max( (∑ₖ m[p,k]·W1l[q,k] + b1[q]) + ∑ₖ x[p,k]·W1r[q,k], 0 )
      layer 2:  y[p,q] = 1 / (1 + exp(−( (∑ₖ m'[p,k]·W2l[q,k] + b2[q]) + ∑ₖ h[p,k]·W2r[q,k] )))
  where m is the mean of x over the edges into p and m' the mean of h over the same edges: an edge sum divided
  by max(in-degree, 1). The specification writes the same two layers with the bias added last and the logistic
  function as one operation.

  The sums over edges are carried as the specification's opaque functions of the features and the edge list: each
  stage that gathers and scatter-adds is that function by unfolding names only, never by reading an edge. All the
  rest is read at one index (p, q): a transposed weight read at (k, q) is the weight at (q, k); a broadcast bias row
  read at (p, q) is the bias at q; a broadcast degree read at (p, k) is the degree at p; a contraction is a finite
  sum over k. The two bracketings of the three summands agree because addition of extended reals is commutative
  and associative, with no finiteness assumption; the words 0.0 and 1.0 denote zero and one.
-/
import proofs.«147514_j47115791237141_1_alg».proof.Proof.Gen.ReferenceIdeal.Read
import proofs.«147514_j47115791237141_1_alg».proof.Proof.Gen.KernelIdeal
import proofs.«147514_j47115791237141_1_alg».proof.Proof.SageSpec
import proofs.«147514_j47115791237141_1_alg».proof.Proof.SageLaws

noncomputable section

open scoped BigOperators

namespace Cert.Sage.Ref

open Idealize.ShloMosaic Idealize.ShloMosaic.ValueIdx Cert.ReferenceIdeal.Read

section Stages

variable (x0 : FVec Ideal Cert.KernelIdeal.S100000x64 .f32) (x1 : IVec Cert.KernelIdeal.S2x1600000 32)
  (x2 x3 : FVec Ideal Cert.KernelIdeal.S128x64 .f32) (x4 : FVec Ideal Cert.KernelIdeal.S128 .f32)
  (x5 x6 : FVec Ideal Cert.KernelIdeal.S64x128 .f32) (x7 : FVec Ideal Cert.KernelIdeal.S64 .f32)

/-! ## The sums over edges, shared with the specification

  The reference slices the two rows of the edge list, wraps negative source words, gathers the source rows and
  scatter-adds them at the destinations; the in-degree is a one scatter-added at every destination. These are the
  specification's definitions spelt with the same operations on the same operands, so each equation below holds by
  unfolding definitions on both sides, the edges themselves untouched. -/

/-- The first layer's edge sum is the specification's. -/
theorem edgeSum64_shared : val_main_v13 (F := Ideal) x0 x1 = Cert.Sage.edgeSum64 x0 x1 := rfl

/-- max(in-degree, 1), as the first layer computes it. -/
theorem degreeMax_shared : val_main_v19 (F := Ideal) x1 = Cert.Sage.degreeMax x1 := rfl

/-- max(in-degree, 1), computed a second time for the second layer: the same array. -/
theorem degreeMax_shared' : val_main_v51 (F := Ideal) x1 = Cert.Sage.degreeMax x1 := rfl

/-- The second layer's gather and scatter-add, of ANY array `h` of 128 features per node, is the specification's
    edge sum of `h`. Stated over a variable `h` so that the features gathered are never looked into. -/
theorem edgeSum128_shared (h : FVec Ideal Cert.KernelIdeal.S100000x128 .f32) :
    Host.scatterAdd (F := Ideal) Cert.ReferenceIdeal.scatter_S100000x128_S1600000x1_S1600000x128_1_0_0_1
      (val_main_v43 (F := Ideal)) (val_main_v44 (F := Ideal) x1)
      (Host.gather Cert.ReferenceIdeal.gather_S100000x128_S1600000x1_S1600000x128_1_0_n_n_0_1_1128 h
        (val_main_v41 (F := Ideal) x1))
      = Cert.Sage.edgeSum128 h x1 := rfl

/-! ## Layer 1 -/

/-- The mean of the input features over incoming edges. At (p, k) the reference divides the edge sum by the degree
    array broadcast first to a column and then along the 64 features: both broadcasts read row p. -/
theorem mean64_eq : val_main_v22 (F := Ideal) x0 x1 = Cert.Sage.mean64 x0 x1 := by
  funext i
  rw [val_main_v22_apply, val_main_v21_apply, val_main_v20_apply, edgeSum64_shared, degreeMax_shared]
  have hi : idx_main_v20 (idx_main_v21 i) = ix1 ⟨(i 0).val, (i 0).isLt⟩ :=
    funext fun a => match a with | ⟨0, _⟩ => rfl
  rw [hi]
  rfl

/-- The aggregated half of layer 1 at (p, q): ∑ₖ mean[p,k]·W1l[q,k]. The contraction pairs column k of the mean's
    row p with row k of the transposed weight, whose entry (k, q) is the weight's entry (q, k). -/
theorem aggProduct1_at (p : Fin 100000) (q : Fin 128) :
    val_main_v24 (F := Ideal) x0 x1 x2 (ix2 p q)
      = ∑ k : Fin 64, Cert.Sage.mean64 x0 x1 (ix2 p k) * x2 (ix2 q k) := by
  rw [val_main_v24_apply, mean64_eq]
  refine Finset.sum_congr rfl fun k _ => ?_
  rw [val_main_v23_apply]
  have hl : lidx_main_v24 (ix2 p q) k = ix2 p k :=
    funext fun a => match a with | ⟨0, _⟩ => rfl | ⟨1, _⟩ => rfl
  have hr : idx_main_v23 (ridx_main_v24 (ix2 p q) k) = ix2 q k :=
    funext fun a => match a with | ⟨0, _⟩ => rfl | ⟨1, _⟩ => rfl
  rw [hl, hr]

/-- The node's own half of layer 1 at (p, q): ∑ₖ x[p,k]·W1r[q,k]. -/
theorem selfProduct1_at (p : Fin 100000) (q : Fin 128) :
    val_main_v29 (F := Ideal) x0 x3 (ix2 p q) = ∑ k : Fin 64, x0 (ix2 p k) * x3 (ix2 q k) := by
  rw [val_main_v29_apply]
  refine Finset.sum_congr rfl fun k _ => ?_
  rw [val_main_v28_apply]
  have hl : lidx_main_v29 (ix2 p q) k = ix2 p k :=
    funext fun a => match a with | ⟨0, _⟩ => rfl | ⟨1, _⟩ => rfl
  have hr : idx_main_v28 (ridx_main_v29 (ix2 p q) k) = ix2 q k :=
    funext fun a => match a with | ⟨0, _⟩ => rfl | ⟨1, _⟩ => rfl
  rw [hl, hr]

/-- The first bias, made a row and repeated down the nodes, read at (p, q): the row's entry q. -/
theorem bias1_at (p : Fin 100000) (q : Fin 128) :
    val_main_v26 (F := Ideal) x4 (ix2 p q) = Cert.Sage.row128 x4 (ix2 (0 : Fin 1) q) := by
  rw [val_main_v26_apply, val_main_v25_apply]
  have h : idx_main_v25 (idx_main_v26 (ix2 p q)) = ix1 q :=
    funext fun a => match a with | ⟨0, _⟩ => rfl
  rw [h]
  rfl

/-- The reference's hidden features are the specification's. At (p, q) the reference has
    max((A + b) + S, 0) where the specification has max((A + S) + b, 0), A the aggregated sum, S the node's own
    sum and b the bias: the last two summands trade places. -/
theorem hidden_eq : val_main_v31 (F := Ideal) x0 x1 x2 x3 x4 = Cert.Sage.hidden x0 x1 x2 x3 x4 := by
  funext i
  obtain ⟨p, q, rfl⟩ : ∃ p q, i = ix2 p q := ⟨_, _, eq_ix2 i⟩
  rw [val_main_v31_apply, val_main_v30_apply, val_main_v27_apply, aggProduct1_at, selfProduct1_at, bias1_at,
    val_main_call0_v0_apply, val_main_call0_cst_apply]
  simp only [Ideal.maximumf_def, Ideal.addf_def, Ideal.ofBits_def]
  rw [Cert.Sage.zero_word, add_right_comm]
  rfl

/-! ## Layer 2 -/

/-- The second layer's edge sum is the specification's edge sum of the hidden features: the array gathered from
    is the hidden array just identified, and the gather and scatter-add around it are the shared ones. -/
theorem edgeSum128_hidden :
    val_main_v45 (F := Ideal) x0 x1 x2 x3 x4 = Cert.Sage.edgeSum128 (Cert.Sage.hidden x0 x1 x2 x3 x4) x1 := by
  rw [← hidden_eq, ← edgeSum128_shared]
  rfl

/-- The mean of the hidden features over incoming edges, as for layer 1 with 128 features in a row. -/
theorem mean128_eq :
    val_main_v54 (F := Ideal) x0 x1 x2 x3 x4 = Cert.Sage.mean128 (Cert.Sage.hidden x0 x1 x2 x3 x4) x1 := by
  funext i
  rw [val_main_v54_apply, val_main_v53_apply, val_main_v52_apply, edgeSum128_hidden, degreeMax_shared']
  have hi : idx_main_v52 (idx_main_v53 i) = ix1 ⟨(i 0).val, (i 0).isLt⟩ :=
    funext fun a => match a with | ⟨0, _⟩ => rfl
  rw [hi]
  rfl

/-- The aggregated half of layer 2 at (p, q): ∑ₖ mean'[p,k]·W2l[q,k], 128 terms. -/
theorem aggProduct2_at (p : Fin 100000) (q : Fin 64) :
    val_main_v56 (F := Ideal) x0 x1 x2 x3 x4 x5 (ix2 p q)
      = ∑ k : Fin 128, Cert.Sage.mean128 (Cert.Sage.hidden x0 x1 x2 x3 x4) x1 (ix2 p k) * x5 (ix2 q k) := by
  rw [val_main_v56_apply, mean128_eq]
  refine Finset.sum_congr rfl fun k _ => ?_
  rw [val_main_v55_apply]
  have hl : lidx_main_v56 (ix2 p q) k = ix2 p k :=
    funext fun a => match a with | ⟨0, _⟩ => rfl | ⟨1, _⟩ => rfl
  have hr : idx_main_v55 (ridx_main_v56 (ix2 p q) k) = ix2 q k :=
    funext fun a => match a with | ⟨0, _⟩ => rfl | ⟨1, _⟩ => rfl
  rw [hl, hr]

/-- The node's own half of layer 2 at (p, q): ∑ₖ h[p,k]·W2r[q,k]. -/
theorem selfProduct2_at (p : Fin 100000) (q : Fin 64) :
    val_main_v61 (F := Ideal) x0 x1 x2 x3 x4 x6 (ix2 p q)
      = ∑ k : Fin 128, Cert.Sage.hidden x0 x1 x2 x3 x4 (ix2 p k) * x6 (ix2 q k) := by
  rw [val_main_v61_apply, hidden_eq]
  refine Finset.sum_congr rfl fun k _ => ?_
  rw [val_main_v60_apply]
  have hl : lidx_main_v61 (ix2 p q) k = ix2 p k :=
    funext fun a => match a with | ⟨0, _⟩ => rfl | ⟨1, _⟩ => rfl
  have hr : idx_main_v60 (ridx_main_v61 (ix2 p q) k) = ix2 q k :=
    funext fun a => match a with | ⟨0, _⟩ => rfl | ⟨1, _⟩ => rfl
  rw [hl, hr]

/-- The second bias, made a row and repeated down the nodes, read at (p, q): the row's entry q. -/
theorem bias2_at (p : Fin 100000) (q : Fin 64) :
    val_main_v58 (F := Ideal) x7 (ix2 p q) = Cert.Sage.row64 x7 (ix2 (0 : Fin 1) q) := by
  rw [val_main_v58_apply, val_main_v57_apply]
  have h : idx_main_v57 (idx_main_v58 (ix2 p q)) = ix1 q :=
    funext fun a => match a with | ⟨0, _⟩ => rfl
  rw [h]
  rfl

end Stages

/-! ## The network -/

/-- The reference's result is the specification's network. At (p, q), with z = (A + b) + S the reference's
    pre-activation, the reference computes 1 / (1 + exp(−z)) with both ones the word 1.0; the specification takes
    the logistic function of (A + S) + b. The summands trade places as in layer 1, and 1 / (1 + exp(−z)) is the
    logistic function's definition. -/
theorem ref_is_net (x0 : FVec Ideal Cert.KernelIdeal.S100000x64 .f32) (x1 : IVec Cert.KernelIdeal.S2x1600000 32)
    (x2 x3 : FVec Ideal Cert.KernelIdeal.S128x64 .f32) (x4 : FVec Ideal Cert.KernelIdeal.S128 .f32)
    (x5 x6 : FVec Ideal Cert.KernelIdeal.S64x128 .f32) (x7 : FVec Ideal Cert.KernelIdeal.S64 .f32) :
    Cert.ReferenceIdeal.Read.val_main_v68 (F := Ideal) x0 x1 x2 x3 x4 x5 x6 x7
      = Cert.Sage.net x0 x1 x2 x3 x4 x5 x6 x7 := by
  funext i
  obtain ⟨p, q, rfl⟩ : ∃ p q, i = ix2 p q := ⟨_, _, eq_ix2 i⟩
  rw [val_main_v68_apply, val_main_v67_apply, val_main_cst_11_apply, val_main_v66_apply, val_main_v65_apply,
    val_main_cst_10_apply, val_main_v64_apply, val_main_v63_apply, val_main_v62_apply, val_main_v59_apply,
    aggProduct2_at, bias2_at, selfProduct2_at]
  simp only [Ideal.hostDivf_def, Ideal.addf_def, Ideal.hostUnary_exp_def, Ideal.hostNegf_def, Ideal.negf_def,
    Ideal.ofBits_def]
  rw [Cert.Sage.one_word, add_right_comm, Cert.Sage.logistic_spelt]
  rfl

end Cert.Sage.Ref

end
-- ==== Proof.lean ====
/-
  Two graph layers with mean aggregation: a kernel program against its plain reference, over the extended reals.

  Both programs compute, for 100 000 nodes and 1 600 000 edges,
      out = logistic( mean₂ · W2lᵀ + h · W2rᵀ + b2 ),   h = max( mean₁ · W1lᵀ + x · W1rᵀ + b1, 0 ),
  where mean₁ and mean₂ are the means of `x` and of `h` over each node's incoming edges: a gather along the edge
  sources, a scatter-add along the edge destinations, and a division by max(in-degree, 1). They differ in four places,
  none of which changes a value on the extended reals:
    * the kernel program multiplies the edge sums by the reciprocal 1 / max(deg, 1) where the reference divides by
      max(deg, 1): the divisor is at least one, hence not zero, and off zero x / y is x · y⁻¹ at the infinities too;
    * the kernel program adds the two matrix products and then the bias, the reference the first product, the bias,
      then the second product: addition of extended reals is commutative and associative;
    * the kernel's matrix unit contracts the last axis of both operands into a zero accumulator where the reference
      transposes the weights and contracts with `dot_general`: the same sum over the contracted axis;
    * the kernel applies the logistic function as one operation, the reference spells it 1 / (1 + e⁻ᶻ): its definition.
  No law used needs the inputs to be finite, so the precondition is never opened.

  The kernel program runs two pipelined kernels over fifty row blocks each. Each kernel's output array, after all
  fifty write-backs, is the dense half of a layer of the five arrays it is entered with (Proof/RegionValue.lean); the
  host operations between them are read buffer by buffer (Proof/HostReads.lean) and composed (Proof/KernelValue.lean) over
  the program's run with its result buffer named (Proof/KernelRun.lean). The reference's last stage is the same network
  (Proof/RefIsNet.lean). The frames are the generated ones; the reference's is its run with the result dropped.
-/
import proofs.«147514_j47115791237141_1_alg».proof.Defs
import proofs.«147514_j47115791237141_1_alg».proof.Proof.Gen.Kernel
import proofs.«147514_j47115791237141_1_alg».proof.Proof.Gen.Kernel.Frame
import proofs.«147514_j47115791237141_1_alg».proof.Proof.Gen.KernelIdeal
import proofs.«147514_j47115791237141_1_alg».proof.Proof.Gen.KernelIdeal.Frame
import proofs.«147514_j47115791237141_1_alg».proof.Proof.Gen.ReferenceIdeal
import proofs.«147514_j47115791237141_1_alg».proof.Proof.Gen.Pre_finite_inputs
import proofs.«147514_j47115791237141_1_alg».proof.Proof.Gen.ReferenceIdeal.Run
import proofs.«147514_j47115791237141_1_alg».proof.Proof.Gen.ReferenceIdeal.Read
import proofs.«147514_j47115791237141_1_alg».proof.Proof.KernelRun
import proofs.«147514_j47115791237141_1_alg».proof.Proof.KernelValue
import proofs.«147514_j47115791237141_1_alg».proof.Proof.RefIsNet

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffer: the kernel program's last boundary
    contents read through its two kernels and host stretches, the reference's last stage read operation by operation. -/
theorem algebraic : Cert.algebraic_KernelIdeal_ReferenceIdeal := by
  intro m ρ m' ρ' _ hagree
  refine ⟨fun c => Cert.Sage.net (Cert.Sage.Kernel.aX m c) (Cert.Sage.Kernel.aE m c) (Cert.Sage.Kernel.aW1l m c)
    (Cert.Sage.Kernel.aW1r m c) (Cert.Sage.Kernel.aB1 m c) (Cert.Sage.Kernel.aW2l m c) (Cert.Sage.Kernel.aW2r m c)
    (Cert.Sage.Kernel.aB2 m c), ?_, ?_⟩
  · exact (θ_run Cert.KernelIdeal.defs _ _).mono
      (fun r h c => ⟨(h c).1.trans (Cert.Sage.Kernel.kernel_value m ρ c), (h c).2⟩)
      (Cert.KernelIdeal.ValueRun.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v68_eq, Cert.Sage.Ref.ref_is_net, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
